-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 60
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S50000, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S_, .f32⟩
  | .hbm, ⟨16, _⟩ => ⟨S800000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S_, .f32⟩
  | .hbm, ⟨34, _⟩ => ⟨S800000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S50000, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S_, .f32⟩
  | .hbm, ⟨16, _⟩ => ⟨S800000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S_, .f32⟩
  | .hbm, ⟨34, _⟩ => ⟨S800000, .f32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.DenseSpec.lean ====
/-
  The dense layer with a rectifier, as one function of its three operands, index by index.

  For a matrix `P` of 50000 rows and 128 columns, a square weight matrix `W` of order 128 and a bias
  vector `b` of length 128, the entry of the result at row `r` and column `c` is

      max (∑ k, P r k * W k c + b c) 0

  on the extended reals: the row of `P` against the column of `W`, the bias of the column added, and the
  whole clipped below at zero. Nothing here needs a finite entry: only the sum, one addition and one
  maximum are applied, in the same order on both sides of the claim.
-/
import Idealize.ShloMosaic.PureOps.Ideal
import Idealize.ShloMosaic.Lib.ValueIdx

noncomputable section

open scoped BigOperators

namespace Cert.Dense

open Idealize.ShloMosaic Idealize.ShloMosaic.ValueIdx

/-- The shape of the pooled features and of the result: 50000 rows of 128 columns. -/
abbrev SRows : Shape := ⟨2, ![50000, 128]⟩
/-- The shape of the weights: 128 by 128. -/
abbrev SWeights : Shape := ⟨2, ![128, 128]⟩
/-- The shape of the bias: 128 entries. -/
abbrev SBias : Shape := ⟨1, ![128]⟩

/-- The zero the rectifier clips against, kept as the float word both programs print. -/
abbrev zeroWord : Ideal .f32 := Ideal.ofBits .f32 0x00000000#32

/-- One entry of the layer from its row index `r` and column index `c`: row `r` of `P` against column `c`
    of `W`, plus the bias of column `c`, clipped below at zero. -/
def denseEntry (P : FVec Ideal SRows .f32) (W : FVec Ideal SWeights .f32) (b : FVec Ideal SBias .f32)
    (r : Fin 50000) (c : Fin 128) : Ideal .f32 :=
  max ((∑ k : Fin 128, P (ix2 r k) * W (ix2 k c)) + b (ix1 c)) zeroWord

/-- The layer: every entry of the result array. -/
def denseRelu (P : FVec Ideal SRows .f32) (W : FVec Ideal SWeights .f32) (b : FVec Ideal SBias .f32) :
    FVec Ideal SRows .f32 :=
  fun i => denseEntry P W b (i 0) (i 1)

theorem denseRelu_apply (P : FVec Ideal SRows .f32) (W : FVec Ideal SWeights .f32) (b : FVec Ideal SBias .f32)
    (i : SRows.Idx) : denseRelu P W b i = denseEntry P W b (i 0) (i 1) := rfl

end Cert.Dense

end
-- ==== Proof.BodyDense.lean ====
/-
  What the kernel's body stores, read at one entry of its block.

  At a grid point the body loads a block of 5000 rows of the pooled features, the whole weight matrix and
  the bias as a single row, multiplies the block by the weights into a zero accumulator, adds the bias row
  broadcast down the rows, and takes the maximum with zero. On the extended reals the narrowing of the two
  operands to a shorter float format changes nothing, so the entry at row `p` of the block and column `q`
  is the row of the block against the column of the weights, plus the bias of the column, clipped at zero.
-/
import proofs.«155825_j850403525191_1_alg».proof.Proof.Gen.KernelIdeal.Skeleton
import proofs.«155825_j850403525191_1_alg».proof.Proof.DenseSpec
import Idealize.ShloMosaic.Lib.ValueIdx
import Idealize.ShloMosaic.Lib.Pipeline.Value
import Idealize.ShloMosaic.PureOps.Ideal.Laws

noncomputable section

open scoped BigOperators

namespace Cert.KernelIdeal.BodyDense

open Cert.KernelIdeal Cert.KernelIdeal.Gen
open Idealize.ShloMosaic Idealize.ShloMosaic.ValueIdx Cert.Dense

/-! ## The block product's operand indices -/

/-- The left operand's row is the output's row. -/
theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction position. -/
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction position. -/
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at row `p` and column `q`: the sum over the 128 contraction
    positions of the left operand's row entry times the right operand's column entry. -/
theorem tile_product_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-! ## The bias row broadcast down the rows -/

/-- The bias row, broadcast to 5000 rows, read at row `p` and column `q` is the row's entry at column `q`. -/
theorem bias_rows_apply {α : Type} (v : S1x128.Idx → α) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-! ## The stored value at an entry -/

/-- The body's stored value at row `p` and column `q` of the block, from the three loaded values. -/
theorem stored_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = max ((∑ k : Fin 128, x0 (ix2 p k) * x1 (ix2 k q)) + x2 (ix2 0 q)) zeroWord := by
  unfold k0_pay1
  simp only [shapeCast_self]
  rw [maximumf_apply, addf_apply, broadcast_apply]
  simp only [matmul]
  rw [tile_product_apply, bias_rows_apply]
  rfl

end Cert.KernelIdeal.BodyDense

end
-- ==== Proof.BlockDense.lean ====
/-
  One block of the result is a block of the dense layer.

  Block `n` of the kernel's grid holds rows `5000 n` to `5000 n + 4999` of the pooled features. If the body's
  three loaded values are that block of rows, the whole weight matrix, and the bias as a row, then what it
  stores at row `p`, column `q` of the block is the layer's entry at row `5000 n + p`, column `q` of the array:
  the same row against the same column, the same bias, the same clip.
-/
import proofs.«155825_j850403525191_1_alg».proof.Proof.BodyDense

noncomputable section

open scoped BigOperators

namespace Cert.KernelIdeal.BlockDense

open Cert.KernelIdeal Cert.KernelIdeal.Gen Cert.KernelIdeal.BodyDense
open Idealize.ShloMosaic Idealize.ShloMosaic.ValueIdx Cert.Dense

/-- The stored value of block `n` at a block index `y` is the layer at the array index `i` with row
    `5000 n + y 0` and column `y 1`, given that the loaded block is those rows of `P` (`hP`), the loaded
    weights are `W` (`hW`) and the loaded bias row is `b` laid out as a row (`hb`). -/
theorem stored_is_dense (P : FVec Ideal SRows .f32) (W : FVec Ideal SWeights .f32) (b : FVec Ideal SBias .f32)
    (x0 : Vec Ideal S5000x128 .f32) (x1 : Vec Ideal S128x128 .f32) (x2 : Vec Ideal S1x128 .f32) (n : Nat)
    (hP : ∀ (y : S5000x128.Idx) (i : SRows.Idx), (i 0).val = n * 5000 + (y 0).val → (i 1).val = (y 1).val → x0 y = P i)
    (hW : ∀ y : S128x128.Idx, x1 y = W y)
    (hb : ∀ q : Fin 128, x2 (ix2 0 q) = b (ix1 q))
    (y : S5000x128.Idx) (i : SRows.Idx) (hi0 : (i 0).val = n * 5000 + (y 0).val) (hi1 : (i 1).val = (y 1).val) :
    k0_pay1 (F := Ideal) x0 x1 x2 y = denseRelu P W b i := by
  obtain ⟨p, q, rfl⟩ : ∃ (p : Fin 5000) (q : Fin 128), y = ix2 p q := ⟨y 0, y 1, eq_ix2 y⟩
  have hq : i 1 = q := Fin.ext hi1
  rw [stored_apply, denseRelu_apply, hq]
  unfold denseEntry
  rw [hb q]
  refine congrArg (fun s => max (s + b (ix1 q)) zeroWord) (Finset.sum_congr rfl fun k _ => ?_)
  rw [hP (ix2 p k) (ix2 (i 0) k) hi0 rfl, hW (ix2 k q)]

end Cert.KernelIdeal.BlockDense

end
-- ==== Proof.BiasRow.lean ====
/-
  The bias row the kernel's region finds.

  Before the region the bias vector of length 128 is reshaped to one row of 128 columns. A reshape keeps
  the row-major order, so column `q` of that row is entry `q` of the vector.
-/
import proofs.«155825_j850403525191_1_alg».proof.Proof.Gen.KernelIdeal.Frame
import proofs.«155825_j850403525191_1_alg».proof.Proof.DenseSpec
import Idealize.ShloMosaic.Lib.ValueIdx
import Idealize.ShloMosaic.Lib.Pipeline.Value
import Idealize.ShloMosaic.Lib.StableHlo.Run

noncomputable section

namespace Cert.KernelIdeal.BiasRow

open Cert.KernelIdeal Cert.KernelIdeal.Gen
open Idealize.ShloMosaic Idealize.ShloMosaic.TcCoe Idealize.SL.Sem Idealize.ShloMosaic.StableHlo
open Idealize.ShloMosaic.ValueIdx Cert.Dense

variable (m : (ℓ : Loc nD τ sig) → Buf (Elt Ideal) ℓ)

/-- The bias vector as launched. -/
abbrev biasOf (c : Dev nD) : FVec Ideal SBias .f32 := m ((c : Thread nD τ).loc main_arg4)

set_option maxRecDepth 8192 in
/-- The row the region finds is the reshape of the bias vector as launched. -/
theorem row_eq (c : Dev nD) :
    (V m c main_v40 : S1x128.Idx → Ideal .f32) = shapeCast S1x128 (biasOf m c) shapeCasts_S128_S1x128 := by
  dsimp only [Gen.V, Gen.hostOps0]
  after_results_simp
  rfl

/-- Column `q` of the row is entry `q` of the vector. -/
theorem row_apply (c : Dev nD) (q : Fin 128) :
    (V m c main_v40 : S1x128.Idx → Ideal .f32) (ix2 0 q) = biasOf m c (ix1 q) := by
  rw [row_eq]
  exact shapeCast_apply (biasOf m c) shapeCasts_S128_S1x128 (ix2 0 q) (ix1 q) (by
    rw [Shape.rowMajor_val_one, Shape.rowMajor_val_two]
    show q.val = 0 * 128 + q.val
    omega)

end Cert.KernelIdeal.BiasRow

end
-- ==== Proof.ArrayDense.lean ====
/-
  From the blocks to the whole array.

  The grid has ten points. Point `t` reads rows `5000 t` to `5000 t + 4999` of the pooled features, the whole
  weight matrix and the whole bias row, and writes back rows `5000 t` to `5000 t + 4999` of the result. By the
  per-block lemma what it writes back is that block of the dense layer of the arrays the region finds; the ten
  blocks tile the 50000 rows (row `r` lies in block `r / 5000`), so after the run the result array is the
  dense layer, everywhere.
-/
import proofs.«155825_j850403525191_1_alg».proof.Proof.Gen.KernelIdeal.Value
import proofs.«155825_j850403525191_1_alg».proof.Proof.BlockDense
import proofs.«155825_j850403525191_1_alg».proof.Proof.BiasRow

noncomputable section

namespace Cert.KernelIdeal.ArrayDense

open Cert.KernelIdeal Cert.KernelIdeal.Gen
open Idealize.ShloMosaic Idealize.ShloMosaic.TcCoe Idealize.SL.Sem
open Idealize.ShloMosaic.Pipeline (Dat)
open Idealize.ShloMosaic.ValueIdx Cert.Dense Cert.KernelIdeal.BiasRow

variable (m : (ℓ : Loc nD τ sig) → Buf (Elt Ideal) ℓ) (ρ : Dev nD → PrngReg)

theorem zero_offsets : (![0, 0] : Fin 2 → Nat) = fun _ => 0 := funext fun a => by fin_cases a <;> rfl

/-- The pooled features as the region finds them. -/
abbrev pooledAt (c : Dev nD) : FVec Ideal SRows .f32 := V m c main_v39
/-- The weights as launched. -/
abbrev weightsOf (c : Dev nD) : FVec Ideal SWeights .f32 := m ((c : Thread nD τ).loc main_arg3)

/-- What the result array ends holding: the dense layer of the pooled features the region finds, the weights
    and the bias as launched. -/
abbrev layer (c : Dev nD) : FVec Ideal SRows .f32 := denseRelu (pooledAt m c) (weightsOf m c) (biasOf m c)

/-- The printed index maps over the ten points: the pooled block and the result block are block `t` of the
    rows, and the weights and the bias row are always their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every one of the ten row blocks is some point's. -/
theorem block_onto : ∀ q0 : Fin 10, ∃ t : Fin cfg0.N, win0_3.index t = ![q0.val, 0] :=
  (by decide +kernel : ∀ q0 : Fin 10, ∃ t : Fin grid0.N, win0_3.index t = ![q0.val, 0])

/-- The pooled window's block at point `t`, read off any contents `f` of its array, at a block index `y`, is
    `f` at the array index `i` with row `5000 t + y 0` and column `y 1`, whatever `f` is. -/
theorem read_rows (t : Fin cfg0.N) (f : FVec Ideal SRows .f32) (y : S5000x128.Idx) (i : SRows.Idx)
    (h0 : (i 0).val = t.val * 5000 + (y 0).val) (h1 : (i 1).val = (y 1).val) :
    ((cfg0.win 0).blk t).view.read (Elt Ideal) f y = f i := by
  obtain ⟨e00, e01, -⟩ := block_indices t
  show f (((cfg0.win 0).blk t).view.emb y) = f i
  refine congrArg f (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The pooled window's block at point `t` is read off the pooled features the region finds. -/
theorem pooled_block (c : Dev nD) (t : Fin cfg0.N) :
    iblk m c 0 t = ((cfg0.win 0).blk t).view.read (Elt Ideal) (pooledAt m c) := by
  unfold iblk
  rfl

/-- Reading the result window's block at point `t` off any contents `f` of the array is `f` at the
    block's index in the array, whatever `f` is. -/
theorem read_block (t : Fin cfg0.N) (f : FVec Ideal SRows .f32) (j : ((cfg0.win 3).xblock (grid0.coords t)).Idx) :
    ((cfg0.win 3).blk t).view.read (Elt Ideal) f j = f (((cfg0.win 3).blk t).view.emb j) := rfl

/-- What the window keeps of a block-sized value `X` at point `t` is `X` itself, index by index (the blocks
    tile the array, so nothing is cut off), whatever `X` is. -/
theorem cut_block (t : Fin cfg0.N) (X : FVec Ideal S5000x128 .f32) (j : ((cfg0.win 3).xblock (grid0.coords t)).Idx) :
    (cfg0.win 3).cut (grid0.coords t) X j = X ((cfg0.win 3).xinj (grid0.coords t) j) := rfl

/-- What point `t` writes back is block `t` of the layer. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31⟩ := block_indices t
  funext j
  refine (cut_block t (k0_pay1 (F := Ideal) (iblk m c 0 t) (iblk m c 1 t) (iblk m c 2 t)) j).trans
    (Eq.trans ?_ (read_block t (layer m c) j).symm)
  refine BlockDense.stored_is_dense (pooledAt m c) (weightsOf m c) (biasOf m c) (iblk m c 0 t) (iblk m c 1 t) (iblk m c 2 t) t.val
    ?_ ?_ ?_ ((cfg0.win 3).xinj (grid0.coords t) j) (((cfg0.win 3).blk t).view.emb j) ?_ ?_
  · intro y i h0 h1
    rw [pooled_block]
    exact read_rows t (pooledAt m c) y i h0 h1
  · intro y
    show V m c main_arg3 (((cfg0.win 1).blk t).view.emb y) = weightsOf m c y
    rw [V_main_arg3]
    refine congrArg (weightsOf m c) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro q
    show V m c main_v40 (((cfg0.win 2).blk t).view.emb (ix2 0 q)) = biasOf m c (ix1 q)
    refine (congrArg (V m c main_v40) (funext fun a => Fin.ext ?_)).trans (row_apply m c q)
    match a with
    | ⟨0, _⟩ => show win0_2.index t (0 : Fin 2) * 1 + 1 * 0 = 0; omega
    | ⟨1, _⟩ => show win0_2.index t (1 : Fin 2) * 128 + 1 * q.val = q.val; omega
  · show win0_3.index t (0 : Fin 2) * 5000 + 1 * (j 0).val = t.val * 5000 + (j 0).val; omega
  · show win0_3.index t (1 : Fin 2) * 128 + 1 * (j 1).val = (j 1).val; omega

/-- An index of the array is in point `t`'s block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v41).slice (win0_3.rect t)).set ↔ _
  rw [View.set_slice_whole, Rect.mem_set_unit]
  exact Iff.rfl

/-- Every index of the result array lies in the block of the point that owns its row. -/
theorem covered (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the run is the layer. -/
theorem final (c : Dev nD) : (dats m 0 c).arrAt 3 cfg0.N = layer m c :=
  (dats m 0 c).arrAt_eq_of_cover 3 (layer m c) (fun t _ => flushed_eq m c t) covered

/-- The kernel's run re-posted: the result array at the dense layer of the pooled features the region finds,
    the arguments unchanged. -/
theorem run : θ_run defs (onTc (τ := τ) (main (F := Ideal))) ⟨m, fun _ => 0, ρ⟩ fun r => ∀ c : Dev nD,
      r.2.mem ((c : Thread nD τ).loc main_v41) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayDense

end
-- ==== Proof.RefDense.lean ====
/-
  The reference's result is the dense layer of its own pooled features.

  The reference ends with a matrix product of the pooled features against the weights, the bias
  broadcast along the rows and added, and a maximum with a zero splat. Read at a row and a column this is
  the row of the pooled features against the column of the weights, plus the bias of the column, clipped
  at zero: the specification's entry. The pooled features themselves (degree counts, inverse square roots,
  a gather and a scatter-add) are carried as one closed term and never opened.
-/
import proofs.«155825_j850403525191_1_alg».proof.Proof.Gen.ReferenceIdeal.Read
import proofs.«155825_j850403525191_1_alg».proof.Proof.DenseSpec

noncomputable section

open scoped BigOperators

namespace Cert.ReferenceIdeal.RefDense

open Cert.ReferenceIdeal Cert.ReferenceIdeal.Gen Cert.ReferenceIdeal.Read
open Idealize.ShloMosaic Idealize.ShloMosaic.ValueIdx Cert.Dense

/-- The pooled features of the reference as a function of the node features and the two edge lists. -/
abbrev pooled (x0 : (⟨S50000x128, .f32⟩ : BufTy).Contents (Elt Ideal)) (x1 x2 : (⟨S800000, .i32⟩ : BufTy).Contents (Elt Ideal)) :
    FVec Ideal SRows .f32 :=
  val_main_v39 (F := Ideal) x0 x1 x2

/-- The left operand of the product at output index `i` and contraction position `k` is row `i 0`, column `k`. -/
theorem left_index (i : S50000x128.Idx) (k : Fin 128) : lidx_main_v40 i k = ix2 (i 0) k :=
  funext fun a => by match a with | ⟨0, _⟩ => rfl | ⟨1, _⟩ => rfl

/-- The right operand there is row `k`, column `i 1`. -/
theorem right_index (i : S50000x128.Idx) (k : Fin 128) : ridx_main_v40 i k = ix2 k (i 1) :=
  funext fun a => by match a with | ⟨0, _⟩ => rfl | ⟨1, _⟩ => rfl

/-- The bias, broadcast to a row and then along the rows, is read at the column. -/
theorem bias_index (i : S50000x128.Idx) : idx_main_v41 (idx_main_v42 i) = ix1 (i 1) :=
  funext fun a => by match a with | ⟨0, _⟩ => rfl

/-- The reference's result array is the dense layer of its pooled features, the weights and the bias. -/
theorem result_eq (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal)) :
    val_main_v44 (F := Ideal) x0 x1 x2 x3 x4 = denseRelu (pooled x0 x1 x2) x3 x4 := by
  funext i
  rw [val_main_v44_apply, val_main_v43_apply, val_main_v40_apply, val_main_v42_apply, val_main_v41_apply,
    val_main_call0_v0_apply, val_main_call0_cst_apply, denseRelu_apply]
  unfold denseEntry
  simp only [left_index, right_index, bias_index]
  rfl

end Cert.ReferenceIdeal.RefDense

end
-- ==== Proof.PooledSame.lean ====
/-
  The two programs pool the same features.

  Up to the dense layer both programs run the same host operations on the same three arguments (the node
  features and the two edge lists): out-degrees and in-degrees by scatter-adding ones, clamped below at one,
  their inverse square roots, the features scaled by the sender's, gathered along the edges, scatter-added at
  the receivers, and scaled by the receiver's. The array the kernel's region finds in its first window is
  therefore, term for term, the reference's pooled stage at the same arguments. Neither the gather nor the
  scatters is opened: the two terms are compared as they are printed.
-/
import proofs.«155825_j850403525191_1_alg».proof.Proof.Gen.KernelIdeal.Frame
import proofs.«155825_j850403525191_1_alg».proof.Proof.Gen.ReferenceIdeal.Read
import Idealize.ShloMosaic.Lib.StableHlo.Run

noncomputable section

namespace Cert.KernelIdeal.PooledSame

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 16384 in
set_option maxHeartbeats 2000000 in
/-- The pooled features the kernel's region finds are the reference's pooled stage of the launched arguments. -/
theorem pooled_eq (c : Dev nD) :
    (V m c main_v39 : S50000x128.Idx → Ideal .f32)
      = Cert.ReferenceIdeal.Read.val_main_v39 (F := Ideal) (m ((c : Thread nD τ).loc main_arg0))
          (m ((c : Thread nD τ).loc main_arg1)) (m ((c : Thread nD τ).loc main_arg2)) := by
  dsimp only [Gen.V, Gen.hostOps0]
  after_results_simp
  rfl

end Cert.KernelIdeal.PooledSame

end
-- ==== Proof.lean ====
/-
  A graph-convolution layer: the kernel against its reference, over the extended reals.

  Both programs first pool the node features along the edges — out- and in-degrees counted by scatter-adding
  ones and clamped below at one, the features scaled by the inverse square root of the sender's degree,
  gathered along the edges, scatter-added at the receivers and scaled by the inverse square root of the
  receiver's degree — with the very same host operations, so the pooled features are one term of the three
  arguments on both sides and are never opened. What differs is the dense layer on top: the reference takes
  one matrix product of all 50000 pooled rows with the 128 by 128 weights, adds the bias along the rows and
  clips at zero, while the kernel does the same on ten blocks of 5000 rows, each a product into a zero
  accumulator. On the extended reals the narrowing of the product's operands is the identity and a product
  into a zero accumulator is the plain sum over the 128 contraction positions, so every entry of both results
  is

      max (∑ k, pooled r k * W k c + b c) 0 ,

  and the ten blocks tile the rows. No entry needs to be finite for this: the sum, the addition and the
  maximum are applied in the same order on both sides, so the precondition is never opened.

  The three frames are the generated ones (the reference's from its generated run), and the kernel's
  idealization rewrote no operation.
-/
import proofs.«155825_j850403525191_1_alg».proof.Defs
import proofs.«155825_j850403525191_1_alg».proof.Proof.Gen.Kernel
import proofs.«155825_j850403525191_1_alg».proof.Proof.Gen.Kernel.Skeleton
import proofs.«155825_j850403525191_1_alg».proof.Proof.Gen.Kernel.Launch
import proofs.«155825_j850403525191_1_alg».proof.Proof.Gen.Kernel.Points
import proofs.«155825_j850403525191_1_alg».proof.Proof.Gen.Kernel.Frame
import proofs.«155825_j850403525191_1_alg».proof.Proof.Gen.KernelIdeal
import proofs.«155825_j850403525191_1_alg».proof.Proof.Gen.KernelIdeal.Skeleton
import proofs.«155825_j850403525191_1_alg».proof.Proof.Gen.KernelIdeal.Launch
import proofs.«155825_j850403525191_1_alg».proof.Proof.Gen.KernelIdeal.Points
import proofs.«155825_j850403525191_1_alg».proof.Proof.Gen.KernelIdeal.Frame
import proofs.«155825_j850403525191_1_alg».proof.Proof.Gen.ReferenceIdeal
import proofs.«155825_j850403525191_1_alg».proof.Proof.Gen.Pre_finite_inputs
import proofs.«155825_j850403525191_1_alg».proof.Proof.Gen.KernelIdeal.Value
import proofs.«155825_j850403525191_1_alg».proof.Proof.Gen.ReferenceIdeal.Run
import proofs.«155825_j850403525191_1_alg».proof.Proof.Gen.ReferenceIdeal.Read
import proofs.«155825_j850403525191_1_alg».proof.Proof.ArrayDense
import proofs.«155825_j850403525191_1_alg».proof.Proof.RefDense
import proofs.«155825_j850403525191_1_alg».proof.Proof.PooledSame
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the dense layer of the same pooled features, the same weights and the same bias:
    the kernel block by block (ten blocks tiling the rows), the reference in one product. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayDense.layer m c, Cert.KernelIdeal.ArrayDense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefDense.result_eq,
    (hagree c).1, (hagree c).2.1, (hagree c).2.2.1, (hagree c).2.2.2.1, (hagree c).2.2.2.2]
  exact congrArg (fun P => Cert.Dense.denseRelu P _ _) (Cert.KernelIdeal.PooledSame.pooled_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
